-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096 : Shape := ⟨2, ![16, 4096]⟩
abbrev S_ : Shape := ⟨0, ![]⟩

class Facts : Prop where
  bcast_S_S16x4096 : S_.BroadcastsInDim S16x4096 (![] : Fin 0 → Fin S16x4096.rank)
  reducesTo_S16x4096_S_d0_1 : S16x4096.ReducesTo [0, 1] S_
  h_S_ : 0 < S_.numel

variable [Facts]

def fn {F : FTy → Type} [FloatOps F] (main_arg0 : FVec F S16x4096 .f32) (main_arg1 : FVec F S16x4096 .f32) : IVec S_ 1 :=
  let main_v0 : FVec F S16x4096 .f32 := Host.absf main_arg0
  let main_cst : FVec F S_ .f32 := constant S_ .f32 0x7F800000#32
  let main_v1 : FVec F S16x4096 .f32 := broadcastInDim S16x4096 ![] bcast_S_S16x4096 main_cst
  let main_v2 : IVec S16x4096 1 := cmpf .olt main_v0 main_v1
  let main_c : IVec S_ 1 := constantI S_ 1 1#1
  let main_v3 : IVec S_ 1 := (fun x v => Host.reduce IntOp.andi x v reducesTo_S16x4096_S_d0_1 h_S_) main_v2 main_c
  let main_v4 : FVec F S16x4096 .f32 := Host.absf main_arg1
  let main_cst_0 : FVec F S_ .f32 := constant S_ .f32 0x7F800000#32
  let main_v5 : FVec F S16x4096 .f32 := broadcastInDim S16x4096 ![] bcast_S_S16x4096 main_cst_0
  let main_v6 : IVec S16x4096 1 := cmpf .olt main_v4 main_v5
  let main_c_1 : IVec S_ 1 := constantI S_ 1 1#1
  let main_v7 : IVec S_ 1 := (fun x v => Host.reduce IntOp.andi x v reducesTo_S16x4096_S_d0_1 h_S_) main_v6 main_c_1
  let main_v8 : IVec S_ 1 := andi main_v3 main_v7
  main_v8
-- ==== Kernel.lean ====
abbrev S16x4096 : Shape := ⟨2, ![16, 4096]⟩
abbrev S16x1x4096 : Shape := ⟨3, ![16, 1, 4096]⟩
abbrev S16x4096x4096 : Shape := ⟨3, ![16, 4096, 4096]⟩
abbrev S1x1x128 : Shape := ⟨3, ![1, 1, 128]⟩
abbrev S1x1x4096 : Shape := ⟨3, ![1, 1, 4096]⟩
abbrev S1x128x4096 : Shape := ⟨3, ![1, 128, 4096]⟩
abbrev S128 : Shape := ⟨1, ![128]⟩
abbrev S4096 : Shape := ⟨1, ![4096]⟩
abbrev S128x1 : Shape := ⟨2, ![128, 1]⟩
abbrev S1x4096 : Shape := ⟨2, ![1, 4096]⟩
abbrev S128x4096 : Shape := ⟨2, ![128, 4096]⟩

abbrev nBuf : Space → Nat
  | .hbm => 5
  | .vmem => 6
  | .smem => 0
  | _ => 0

abbrev bufTy : (tb : Table) → Fin (tcTables nBuf tb) → BufTy
  | .hbm, ⟨0, _⟩ => ⟨S16x4096, .f32⟩
  | .hbm, ⟨1, _⟩ => ⟨S16x4096, .f32⟩
  | .hbm, ⟨2, _⟩ => ⟨S16x1x4096, .f32⟩
  | .hbm, ⟨3, _⟩ => ⟨S16x1x4096, .f32⟩
  | .hbm, ⟨4, _⟩ => ⟨S16x4096x4096, .f32⟩
  | .local _ .vmem, ⟨0, _⟩ => ⟨S1x1x128, .f32⟩
  | .local _ .vmem, ⟨1, _⟩ => ⟨S1x1x128, .f32⟩
  | .local _ .vmem, ⟨2, _⟩ => ⟨S1x1x4096, .f32⟩
  | .local _ .vmem, ⟨3, _⟩ => ⟨S1x1x4096, .f32⟩
  | .local _ .vmem, ⟨4, _⟩ => ⟨S1x128x4096, .f32⟩
  | .local _ .vmem, ⟨5, _⟩ => ⟨S1x128x4096, .f32⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S16x4096_S16x1x4096 : S16x4096.ShapeCasts S16x1x4096
  inb_S1x1x128_S1x1x128_0_0_0 : ∀ a, (![0, 0, 0] : Fin 3 → Nat) a + S1x1x128.size a ≤ S1x1x128.size a
  h_S1x1x128 : 0 < S1x1x128.numel
  shapeCasts_S1x1x128_S128 : S1x1x128.ShapeCasts S128
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S4096 : S1x1x4096.ShapeCasts S4096
  shapeCasts_S128_S128x1 : S128.ShapeCasts S128x1
  shapeCasts_S4096_S1x4096 : S4096.ShapeCasts S1x4096
  broadcasts_S128x1_S128x4096 : S128x1.Broadcasts S128x4096
  broadcasts_S1x4096_S128x4096 : S1x4096.Broadcasts S128x4096
  iota_S128x1_d0_w32 : S128x1.Iotas .tc 32 [0]
  iota_S1x4096_d1_w32 : S1x4096.Iotas .tc 32 [1]
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  shapeCasts_S128x4096_S1x128x4096 : S128x4096.ShapeCasts S1x128x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x128.size a ≤ S16x1x4096.size a
  hwx0_0 : ∀ i : grid0.Coords, EltTy.bits .f32 = 32 ∨ (Rect.block (s := S16x1x4096) S1x1x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x4096.size a ≤ S16x1x4096.size a
  hwx0_1 : ∀ i : grid0.Coords, EltTy.bits .f32 = 32 ∨ (Rect.block (s := S16x1x4096) S1x1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x4096.size a ≤ S16x4096x4096.size a
  hwx0_2 : ∀ i : grid0.Coords, EltTy.bits .f32 = 32 ∨ (Rect.block (s := S16x4096x4096) S1x128x4096.size (cc0_transform_2 i) (hinb0_2 i)).WholeWords (EltTy.packing .f32)

variable [Facts₀]

abbrev win0_0 : Pipeline.Window sig grid0 :=
  Pipeline.Window.ofSpec (Memref.whole main_v0) S1x1x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x4096 : Shape := ⟨2, ![16, 4096]⟩
abbrev S16x4096x1 : Shape := ⟨3, ![16, 4096, 1]⟩
abbrev S16x1x4096 : Shape := ⟨3, ![16, 1, 4096]⟩
abbrev S16x4096x4096 : Shape := ⟨3, ![16, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S1x4096x4096 : Shape := ⟨3, ![1, 4096, 4096]⟩

abbrev nBuf : Space → Nat
  | .hbm => 26
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S16x4096, .f32⟩
  | .hbm, ⟨2, _⟩ => ⟨S16x4096x1, .f32⟩
  | .hbm, ⟨3, _⟩ => ⟨S16x1x4096, .f32⟩
  | .hbm, ⟨4, _⟩ => ⟨S16x4096x4096, .f32⟩
  | .hbm, ⟨5, _⟩ => ⟨S16x4096x4096, .f32⟩
  | .hbm, ⟨6, _⟩ => ⟨S16x4096x4096, .f32⟩
  | .hbm, ⟨7, _⟩ => ⟨S4096, .i32⟩
  | .hbm, ⟨8, _⟩ => ⟨S4096x1, .i32⟩
  | .hbm, ⟨9, _⟩ => ⟨S4096, .i32⟩
  | .hbm, ⟨10, _⟩ => ⟨S1x4096, .i32⟩
  | .hbm, ⟨11, _⟩ => ⟨S4096x4096, .i32⟩
  | .hbm, ⟨12, _⟩ => ⟨S4096x4096, .i32⟩
  | .hbm, ⟨13, _⟩ => ⟨S4096x4096, .i32⟩
  | .hbm, ⟨14, _⟩ => ⟨S_, .i32⟩
  | .hbm, ⟨15, _⟩ => ⟨S4096x4096, .i32⟩
  | .hbm, ⟨16, _⟩ => ⟨S4096x4096, .i1⟩
  | .hbm, ⟨17, _⟩ => ⟨S_, .i32⟩
  | .hbm, ⟨18, _⟩ => ⟨S4096x4096, .i32⟩
  | .hbm, ⟨19, _⟩ => ⟨S4096x4096, .i1⟩
  | .hbm, ⟨20, _⟩ => ⟨S4096x4096, .i1⟩
  | .hbm, ⟨21, _⟩ => ⟨S1x4096x4096, .i1⟩
  | .hbm, ⟨22, _⟩ => ⟨S_, .f32⟩
  | .hbm, ⟨23, _⟩ => ⟨S16x4096x4096, .i1⟩
  | .hbm, ⟨24, _⟩ => ⟨S16x4096x4096, .f32⟩
  | .hbm, ⟨25, _⟩ => ⟨S16x4096x4096, .f32⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_c : Ref sig .tc := ⟨.hbm, 14, rfl⟩
abbrev main_v12 : Ref sig .tc := ⟨.hbm, 15, rfl⟩
abbrev main_v13 : Ref sig .tc := ⟨.hbm, 16, rfl⟩
abbrev main_c_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst : Ref sig .tc := ⟨.hbm, 22, rfl⟩
abbrev main_call0_v0 : Ref sig .tc := ⟨.hbm, 23, rfl⟩
abbrev main_call0_v1 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  bcast_S16x4096_S16x4096x1_0_1 : S16x4096.BroadcastsInDim S16x4096x1 (![0, 1] : Fin 2 → Fin S16x4096x1.rank)
  bcast_S16x4096_S16x1x4096_0_2 : S16x4096.BroadcastsInDim S16x1x4096 (![0, 2] : Fin 2 → Fin S16x1x4096.rank)
  bcast_S16x4096x1_S16x4096x4096_0_1_2 : S16x4096x1.BroadcastsInDim S16x4096x4096 (![0, 1, 2] : Fin 3 → Fin S16x4096x4096.rank)
  bcast_S16x1x4096_S16x4096x4096_0_1_2 : S16x1x4096.BroadcastsInDim S16x4096x4096 (![0, 1, 2] : Fin 3 → Fin S16x4096x4096.rank)
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  bcast_S4096x4096_S1x4096x4096_1_2 : S4096x4096.BroadcastsInDim S1x4096x4096 (![1, 2] : Fin 2 → Fin S1x4096x4096.rank)
  bcast_S1x4096x4096_S16x4096x4096_0_1_2 : S1x4096x4096.BroadcastsInDim S16x4096x4096 (![0, 1, 2] : Fin 3 → Fin S16x4096x4096.rank)
  bcast_S_S16x4096x4096 : S_.BroadcastsInDim S16x4096x4096 (![] : Fin 0 → Fin S16x4096x4096.rank)

variable [Facts₀]

class Facts : Prop extends Facts₀ where

variable [Facts]
-- ==== Proof.BandSpec.lean ====
/-
  The banded outer product, as one function of the two argument arrays.

  For `s, e : [16, 4096]` the result at `(b, i, j)` of `[16, 4096, 4096]` is `s[b, i] · e[b, j]` when `j − i` lies in
  `0 … 15`, and `0` otherwise. Both programs decide the band on 32-bit words — the column number minus the row number,
  compared signed against `0` and against `15` — so the test is stated here once, as a function of the two numbers
  (`inBand`), and read back as the inequality `i ≤ j ≤ i + 15` for numbers below `2^31` (`inBand_eq_one_iff`): no
  wrap-around happens at these extents. The product is taken on the extended reals; no law of arithmetic is used
  anywhere (both programs form the very same product and select between it and zero), so the inputs' finiteness is
  never opened.
-/
import Idealize.ShloMosaic.PureOps.Ideal
import Idealize.ShloMosaic.Lib.ValueIdx

noncomputable section

namespace Cert.Band

open Idealize.ShloMosaic Idealize.ShloMosaic.ValueIdx

/-- The band test on 32-bit words: `1` exactly when `0 ≤ j − i` and `j − i ≤ 15`, both compared signed. -/
def inBand (i j : Nat) : BitVec 1 :=
  IntOp.andi (IntOp.cmpi .sge (IntOp.subi (BitVec.ofNat 32 j) (BitVec.ofNat 32 i)) 0#32)
    (IntOp.cmpi .sle (IntOp.subi (BitVec.ofNat 32 j) (BitVec.ofNat 32 i)) 15#32)

/-- The banded outer product: `s[b, i] · e[b, j]` inside the band `0 ≤ j − i ≤ 15`, zero outside. -/
def banded (s e : (⟨2, ![16, 4096]⟩ : Shape).Idx → EReal) : (⟨3, ![16, 4096, 4096]⟩ : Shape).Idx → EReal :=
  fun k => Scalar.select (inBand (k 1).val (k 2).val) (s (ix2 (k 0) (k 1)) * e (ix2 (k 0) (k 2))) 0

/-- A row number given as block `t` of 128 rows plus the row `r` inside the block is the word sum the kernel forms:
    `r + t · 128` on 32-bit words. -/
theorem ofNat_row (t r : Nat) :
    IntOp.addi (BitVec.ofNat 32 r) (IntOp.muli (BitVec.ofNat 32 t) 128#32) = BitVec.ofNat 32 (t * 128 + r) := by
  show BitVec.ofNat 32 r + BitVec.ofNat 32 t * BitVec.ofNat 32 128 = _
  rw [← BitVec.ofNat_mul, ← BitVec.ofNat_add, Nat.add_comm]

/-- Two one-bit words, each a truth value, have conjunction `1` exactly when both are true. -/
theorem ofBool_and_eq_one (a b : Bool) : (BitVec.ofBool a &&& BitVec.ofBool b = 1#1) ↔ (a = true ∧ b = true) := by
  cases a <;> cases b <;> decide

/-- A number below `2^31`, as a 32-bit word read signed, is itself. -/
theorem toInt_ofNat_small (n : Nat) (h : n < 2 ^ 31) : (BitVec.ofNat 32 n).toInt = (n : Int) := by
  rw [BitVec.toInt_ofNat', Int.bmod_def]
  have hmod : ((n : Int) % ((2 : Nat) ^ 32 : Nat)) = n := by
    apply Int.emod_eq_of_lt <;> omega
  rw [hmod]; split <;> omega

/-- The word difference of two numbers below `2^31`, read signed, is their integer difference: it lies strictly
    between `−2^31` and `2^31`, so nothing wraps. -/
theorem toInt_sub_small (i j : Nat) (hi : i < 2 ^ 31) (hj : j < 2 ^ 31) :
    (BitVec.ofNat 32 j - BitVec.ofNat 32 i).toInt = (j : Int) - (i : Int) := by
  rw [BitVec.toInt_sub, toInt_ofNat_small i hi, toInt_ofNat_small j hj, Int.bmod_def]
  split <;> omega

/-- For numbers below `2^31` the word test is the band itself: `i ≤ j ≤ i + 15`. -/
theorem inBand_eq_one_iff (i j : Nat) (hi : i < 2 ^ 31) (hj : j < 2 ^ 31) : inBand i j = 1#1 ↔ i ≤ j ∧ j ≤ i + 15 := by
  show BitVec.ofBool ((0#32).sle (BitVec.ofNat 32 j - BitVec.ofNat 32 i))
      &&& BitVec.ofBool ((BitVec.ofNat 32 j - BitVec.ofNat 32 i).sle 15#32) = 1#1 ↔ _
  rw [ofBool_and_eq_one, BitVec.sle, BitVec.sle, decide_eq_true_eq, decide_eq_true_eq, toInt_sub_small i j hi hj]
  have h0 : (0#32).toInt = 0 := by decide
  have h15 : (15#32).toInt = 15 := by decide
  rw [h0, h15]
  omega

end Cert.Band

end
-- ==== Proof.LibKeepdims.lean ====
/-
  Column and unit-axis layouts read at an index, by coordinates.

  A vector of `a` entries viewed as a column `[a, 1]`, a column `[a, 1]` broadcast across `b` columns, a
  `[1, 1, a]` block viewed as a vector, and an `[a, b]` array given a middle unit axis: each only re-addresses its operand, and each is read here at an index written
  by its coordinates, so that a chain of them rewrites to the operand at one explicit index. They stand beside the
  library's row forms (`[a]` as `[1, a]`, a row `[1, b]` broadcast down `a` rows).
-/
import Idealize.ShloMosaic.Lib.Pipeline.Value
import Idealize.ShloMosaic.Lib.ValueIdx

namespace Cert.Keepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1, a]` array cast to `[a]` reads, at `i`, the operand at `(0, 0, i)`. -/
theorem shapeCast_11a_a_apply {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

/-- An `[a, b]` array cast to `[a, 1, b]` reads, at `(i, u, j)`, the operand at `(i, j)`, whatever the unit coordinate `u`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.BandPayload.lean ====
/-
  The kernel's stored block, entry by entry.

  At grid point `(b, t)` the body loads 128 entries of `s` (a `[1, 1, 128]` block) and a whole row of `e` (a
  `[1, 1, 4096]` block), lays the first out as a column and the second as a row, multiplies them into a
  `[128, 4096]` tile, and keeps the product where the column number minus the row number lies in `0 … 15`. The row
  number is the row inside the tile plus `128 · t`: the tile's position along the grid's second axis. Entry `(r, q)`
  of the tile is therefore `s_blk[r] · e_blk[q]` when `(128 · t + r, q)` is in the band and zero otherwise.
-/
import proofs.«115489_j68676527063502_1_alg».proof.Proof.Gen.KernelIdeal.Skeleton
import proofs.«115489_j68676527063502_1_alg».proof.Proof.BandSpec
import proofs.«115489_j68676527063502_1_alg».proof.Proof.LibKeepdims
import Idealize.ShloMosaic.Lib.ValueLayout
import Idealize.ShloMosaic.PureOps.Ideal.Laws

noncomputable section

namespace Cert.KernelIdeal.BandPayload

open Cert.KernelIdeal Cert.KernelIdeal.Gen Cert.Band Cert.Keepdims Idealize.ShloMosaic Idealize.ShloMosaic.ValueIdx

/-- The loaded `[1, 1, 128]` block, as a column broadcast across the tile, read at `(r, q)`: the block's entry `r`. -/
theorem column_apply (x0 : Vec Ideal S1x1x128 .f32) (h1 : S1x1x128.ShapeCasts S128) (h2 : S128.ShapeCasts S128x1)
    (h3 : S128x1.Broadcasts S128x4096) (r : Fin 128) (q : Fin 4096) :
    broadcastTo S128x4096 (shapeCast S128x1 (shapeCast S128 x0 h1) h2) h3 (ix2 r q) = x0 (ix3 (0 : Fin 1) (0 : Fin 1) r) := by
  rw [broadcastTo_a1_ab_apply, shapeCast_a_a1_apply, shapeCast_11a_a_apply]

/-- The loaded `[1, 1, 4096]` block, as a row broadcast down the tile, read at `(r, q)`: the block's entry `q`. -/
theorem row_apply (x1 : Vec Ideal S1x1x4096 .f32) (h1 : S1x1x4096.ShapeCasts S4096) (h2 : S4096.ShapeCasts S1x4096)
    (h3 : S1x4096.Broadcasts S128x4096) (r : Fin 128) (q : Fin 4096) :
    broadcastTo S128x4096 (shapeCast S1x4096 (shapeCast S4096 x1 h1) h2) h3 (ix2 r q) = x1 (ix3 (0 : Fin 1) (0 : Fin 1) q) := by
  rw [broadcastTo_1b_ab_apply, shapeCast_a_1a_apply, shapeCast_11a_a_apply]

/-- The column numbers, a `[1, 4096]` iota broadcast down the tile, read at `(r, q)`: the word `q`. -/
theorem colNumber_apply (h1 : S1x4096.Iotas .tc 32 [1]) (h3 : S1x4096.Broadcasts S128x4096) (r : Fin 128) (q : Fin 4096) :
    broadcastTo S128x4096 (iota .tc S1x4096 32 [1] h1) h3 (ix2 r q) = BitVec.ofNat 32 q.val := by
  rw [broadcastTo_1b_ab_apply, iota_single_apply]

/-- The row numbers, a `[128, 1]` iota plus the tile's first row `w`, broadcast across the tile, read at `(r, q)`: the
    word sum `r + w`. -/
theorem rowNumber_apply (w : BitVec 32) (h1 : S128x1.Iotas .tc 32 [0]) (h3 : S128x1.Broadcasts S128x4096) (r : Fin 128) (q : Fin 4096) :
    broadcastTo S128x4096 (addi (iota .tc S128x1 32 [0] h1) (broadcast S128x1 w)) h3 (ix2 r q)
      = IntOp.addi (BitVec.ofNat 32 r.val) w := by
  rw [broadcastTo_a1_ab_apply]
  show IntOp.addi (iota .tc S128x1 32 [0] h1 (ix2 r (0 : Fin 1))) w = _
  rw [iota_single_apply]

/-- Entry `(r, q)` of the tile stored at grid point `i`: the product of the two loaded blocks' entries inside the
    band of row `128 · i₁ + r` and column `q`, zero outside. -/
theorem payload_apply (i : grid0.Coords) (x0 : Vec Ideal S1x1x128 .f32) (x1 : Vec Ideal S1x1x4096 .f32)
    (u : Fin 1) (r : Fin 128) (q : Fin 4096) :
    k0_pay1 (F := Ideal) i x0 x1 (ix3 u r q)
      = Scalar.select (inBand ((i 1).val * 128 + r.val) q.val)
          (x0 (ix3 (0 : Fin 1) (0 : Fin 1) r) * x1 (ix3 (0 : Fin 1) (0 : Fin 1) q)) 0 := by
  unfold k0_pay1
  refine (shapeCast_ab_1ab_apply _ _ u r q).trans ?_
  simp only [select_apply, mulf_apply, andi, cmpi, subi, broadcast_apply]
  have e1 := colNumber_apply iota_S1x4096_d1_w32 broadcasts_S1x4096_S128x4096 r q
  have e2 := rowNumber_apply (Scalar.muli (BitVec.ofNat 32 (i 1).val) 128#32) iota_S128x1_d0_w32 broadcasts_S128x1_S128x4096 r q
  have e3 := column_apply x0 shapeCasts_S1x1x128_S128 shapeCasts_S128_S128x1 broadcasts_S128x1_S128x4096 r q
  have e4 := row_apply x1 shapeCasts_S1x1x4096_S4096 shapeCasts_S4096_S1x4096 broadcasts_S1x4096_S128x4096 r q
  rw [e1]
  rw [e2]
  rw [e3]
  rw [e4]
  rw [show Scalar.muli (BitVec.ofNat 32 (i 1).val) 128#32 = IntOp.muli (BitVec.ofNat 32 (i 1).val) 128#32 from rfl,
    ofNat_row, Ideal.ofBits_def, Ideal.ofBits_zero_f32]
  rfl

end Cert.KernelIdeal.BandPayload

end
-- ==== Proof.KernelBand.lean ====
/-
  The kernel's result array is the banded outer product.

  The grid is 16 × 32: point `t` handles batch entry `b = t / 32` and the row tile `t % 32`, rows
  `128 · (t % 32) … 128 · (t % 32) + 127`. It is handed entries `128 · (t % 32) + r` of row `b` of `s` and the whole
  row `b` of `e` (both arrays given a middle unit axis by the host before the call, which moves no entry), and
  writes back the `[1, 128, 4096]` block at `(b, 128 · (t % 32), 0)`. By the body's entry formula the block's
  entry `(r, q)` is `s[b, i] · e[b, q]` with `i = 128 · (t % 32) + r` inside the band of `(i, q)` and zero outside:
  the banded outer product read through the block. The 512 blocks tile the result array (row `i` of batch entry `b`
  lies in the block of point `32 · b + i / 128`), so the array ends as the banded outer product everywhere.
-/
import proofs.«115489_j68676527063502_1_alg».proof.Proof.KernelIdealValue
import proofs.«115489_j68676527063502_1_alg».proof.Proof.BandPayload
import Idealize.ShloMosaic.Lib.StableHlo.Run

noncomputable section

namespace Cert.KernelIdeal.KernelBand

open Cert.KernelIdeal Cert.KernelIdeal.Gen Cert.KernelIdeal.GenP Cert.KernelIdeal.ValueP Cert.KernelIdeal.BandPayload
open Cert.Band Cert.Keepdims Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-! ## The two staged arrays: the arguments with a middle unit axis -/

/-- The array the first window stages is the first argument viewed `[16, 1, 4096]`. -/
theorem V_main_v0 (c : Dev nD) : (V m c main_v0 : S16x1x4096.Idx → EReal)
    = shapeCast S16x1x4096 (m ((c : Thread nD τ).loc main_arg0)) shapeCasts_S16x4096_S16x1x4096 := by
  dsimp only [V, hostOps0]; after_results; rfl

/-- The array the second window stages is the second argument viewed `[16, 1, 4096]`. -/
theorem V_main_v1 (c : Dev nD) : (V m c main_v1 : S16x1x4096.Idx → EReal)
    = shapeCast S16x1x4096 (m ((c : Thread nD τ).loc main_arg1)) shapeCasts_S16x4096_S16x1x4096 := by
  dsimp only [V, hostOps0]; after_results; rfl

/-! ## Where each point's blocks sit -/

/-- The three index maps over the grid: point `t` is batch entry `t / 32` and row tile `t % 32`; the result block
    sits at `(t / 32, t % 32, 0)`, the block of `s` at `(t / 32, 0, t % 32)`, the block of `e` at `(t / 32, 0, 0)`;
    and the grid's second coordinate, which the body reads, is the row tile. -/
theorem idx_facts : ∀ t : Fin cfg0.N,
    win0_2.index t (0 : Fin 3) = t.val / 32 ∧ win0_2.index t (1 : Fin 3) = t.val % 32 ∧ win0_2.index t (2 : Fin 3) = 0
    ∧ win0_0.index t (0 : Fin 3) = t.val / 32 ∧ win0_0.index t (1 : Fin 3) = 0 ∧ win0_0.index t (2 : Fin 3) = t.val % 32
    ∧ win0_1.index t (0 : Fin 3) = t.val / 32 ∧ win0_1.index t (1 : Fin 3) = 0 ∧ win0_1.index t (2 : Fin 3) = 0
    ∧ ((grid0.coords t) 1).val = t.val % 32 :=
  (by decide +kernel : ∀ t : Fin grid0.N, _)

theorem lt_512 (t : Fin cfg0.N) : t.val < 512 := lt_of_lt_of_eq t.isLt N_0

/-- The batch entry of point `t`. -/
def batchOf (t : Fin cfg0.N) : Fin 16 := ⟨t.val / 32, by have := lt_512 t; omega⟩

/-- The row of the result that row `r` of point `t`'s tile is. -/
def rowOf (t : Fin cfg0.N) (r : Fin 128) : Fin 4096 := ⟨t.val % 32 * 128 + r.val, by have := r.isLt; omega⟩

/-- Entry `r` of the block of `s` at point `t` is `s[t / 32, 128 · (t % 32) + r]`. -/
theorem sblk_apply (c : Dev nD) (t : Fin cfg0.N) (r : Fin 128) :
    iblk m c 0 t (ix3 (0 : Fin 1) (0 : Fin 1) r) = m ((c : Thread nD τ).loc main_arg0) (ix2 (batchOf t) (rowOf t r)) := by
  obtain ⟨-, -, -, f0, f1, f2, -⟩ := idx_facts t
  have hidx : ((cfg0.win 0).blk t).view.emb (ix3 (0 : Fin 1) (0 : Fin 1) r) = ix3 (batchOf t) (0 : Fin 1) (rowOf t r) := by
    funext a; apply Fin.ext
    match a with
    | ⟨0, _⟩ => show win0_0.index t (0 : Fin 3) * 1 + 1 * 0 = t.val / 32; omega
    | ⟨1, _⟩ => show win0_0.index t (1 : Fin 3) * 1 + 1 * 0 = 0; omega
    | ⟨2, _⟩ => show win0_0.index t (2 : Fin 3) * 128 + 1 * r.val = t.val % 32 * 128 + r.val; omega
  show V m c main_v0 (((cfg0.win 0).blk t).view.emb (ix3 (0 : Fin 1) (0 : Fin 1) r)) = _
  rw [hidx]
  exact (congrFun (V_main_v0 m c) _).trans (shapeCast_ab_a1b_apply _ _ _ _ _)

/-- Entry `q` of the block of `e` at point `t` is `e[t / 32, q]`. -/
theorem eblk_apply (c : Dev nD) (t : Fin cfg0.N) (q : Fin 4096) :
    iblk m c 1 t (ix3 (0 : Fin 1) (0 : Fin 1) q) = m ((c : Thread nD τ).loc main_arg1) (ix2 (batchOf t) q) := by
  obtain ⟨-, -, -, -, -, -, g0, g1, g2, -⟩ := idx_facts t
  have hidx : ((cfg0.win 1).blk t).view.emb (ix3 (0 : Fin 1) (0 : Fin 1) q) = ix3 (batchOf t) (0 : Fin 1) q := by
    funext a; apply Fin.ext
    match a with
    | ⟨0, _⟩ => show win0_1.index t (0 : Fin 3) * 1 + 1 * 0 = t.val / 32; omega
    | ⟨1, _⟩ => show win0_1.index t (1 : Fin 3) * 1 + 1 * 0 = 0; omega
    | ⟨2, _⟩ => show win0_1.index t (2 : Fin 3) * 4096 + 1 * q.val = q.val; omega
  show V m c main_v1 (((cfg0.win 1).blk t).view.emb (ix3 (0 : Fin 1) (0 : Fin 1) q)) = _
  rw [hidx]
  exact (congrFun (V_main_v1 m c) _).trans (shapeCast_ab_a1b_apply _ _ _ _ _)

/-- Entry `(u, r, q)` of the result block at point `t` is entry `(t / 32, 128 · (t % 32) + r, q)` of the result. -/
theorem oblk_emb (t : Fin cfg0.N) (u : Fin 1) (r : Fin 128) (q : Fin 4096) :
    ((cfg0.win 2).blk t).view.emb (ix3 u r q) = ix3 (batchOf t) (rowOf t r) q := by
  obtain ⟨e0, e1, e2, -⟩ := idx_facts t
  funext a; apply Fin.ext
  match a with
  | ⟨0, _⟩ => show win0_2.index t (0 : Fin 3) * 1 + 1 * u.val = t.val / 32; omega
  | ⟨1, _⟩ => show win0_2.index t (1 : Fin 3) * 128 + 1 * r.val = t.val % 32 * 128 + r.val; omega
  | ⟨2, _⟩ => show win0_2.index t (2 : Fin 3) * 4096 + 1 * q.val = q.val; omega

/-! ## What a point writes back, and the whole array -/

/-- What point `t` writes back is the banded outer product of the two arguments, read through `t`'s block. -/
theorem flushed_eq (c : Dev nD) (t : Fin cfg0.N) :
    (dats m 0 c).flushed 2 t = ((cfg0.win 2).blk t).view.read (Elt Ideal)
      (banded (m ((c : Thread nD τ).loc main_arg0)) (m ((c : Thread nD τ).loc main_arg1))) := by
  rw [flushed2]
  unfold out0_2
  rw [View.canon_unit_zero hz]
  simp only [View.ld_unit_zero (S := S1x1x128) hz, View.ld_unit_zero (S := S1x1x4096) hz]
  funext y
  obtain ⟨u, r, q, rfl⟩ : ∃ (u : Fin 1) (r : Fin 128) (q : Fin 4096), y = ix3 u r q := ⟨y 0, y 1, y 2, eq_ix3 y⟩
  show k0_pay1 (F := Ideal) (grid0.coords t) (iblk m c 0 t) (iblk m c 1 t) (ix3 u r q)
    = banded (m ((c : Thread nD τ).loc main_arg0)) (m ((c : Thread nD τ).loc main_arg1)) (((cfg0.win 2).blk t).view.emb (ix3 u r q))
  rw [oblk_emb t u r q]
  refine (payload_apply (grid0.coords t) (iblk m c 0 t) (iblk m c 1 t) u r q).trans ?_
  rw [sblk_apply m c t r, eblk_apply m c t q, (idx_facts t).2.2.2.2.2.2.2.2.2]
  rfl

/-- An index of the result lies in point `t`'s block iff each coordinate lies in the block's range on its axis. -/
theorem mem_blk (t : Fin cfg0.N) (i : S16x4096x4096.Idx) :
    i ∈ ((cfg0.win 2).blk t).view.set ↔ ∀ a : Fin 3, win0_2.index t a * S1x128x4096.size a ≤ (i a).val
      ∧ (i a).val < win0_2.index t a * S1x128x4096.size a + S1x128x4096.size a := by
  show i ∈ ((View.whole main_v2).slice (win0_2.rect t)).set ↔ _
  rw [View.set_slice_whole, Rect.mem_set_unit]
  exact Iff.rfl

/-- The blocks tile the result: entry `(b, i, j)` lies in the block of point `32 · b + i / 128`. -/
theorem cover (i : S16x4096x4096.Idx) :
    ∃ t : Fin cfg0.N, (cfg0.win 2).flush t = true ∧ i ∈ ((cfg0.win 2).blk t).view.set := by
  have h0 : (i 0).val < 16 := (i 0).isLt
  have h1 : (i 1).val < 4096 := (i 1).isLt
  have h2 : (i 2).val < 4096 := (i 2).isLt
  have hN : (i 0).val * 32 + (i 1).val / 128 < cfg0.N := by rw [show cfg0.N = 512 from N_0]; omega
  obtain ⟨e0, e1, e2, -⟩ := idx_facts ⟨(i 0).val * 32 + (i 1).val / 128, hN⟩
  refine ⟨⟨(i 0).val * 32 + (i 1).val / 128, hN⟩, flush0_2 _, ?_⟩
  rw [mem_blk]
  intro a
  match a with
  | ⟨0, _⟩ =>
    show win0_2.index ⟨(i 0).val * 32 + (i 1).val / 128, hN⟩ (0 : Fin 3) * 1 ≤ (i 0).val
      ∧ (i 0).val < win0_2.index ⟨(i 0).val * 32 + (i 1).val / 128, hN⟩ (0 : Fin 3) * 1 + 1
    rw [e0]; show ((i 0).val * 32 + (i 1).val / 128) / 32 * 1 ≤ _ ∧ _ < ((i 0).val * 32 + (i 1).val / 128) / 32 * 1 + 1; omega
  | ⟨1, _⟩ =>
    show win0_2.index ⟨(i 0).val * 32 + (i 1).val / 128, hN⟩ (1 : Fin 3) * 128 ≤ (i 1).val
      ∧ (i 1).val < win0_2.index ⟨(i 0).val * 32 + (i 1).val / 128, hN⟩ (1 : Fin 3) * 128 + 128
    rw [e1]; show ((i 0).val * 32 + (i 1).val / 128) % 32 * 128 ≤ _ ∧ _ < ((i 0).val * 32 + (i 1).val / 128) % 32 * 128 + 128; omega
  | ⟨2, _⟩ =>
    show win0_2.index ⟨(i 0).val * 32 + (i 1).val / 128, hN⟩ (2 : Fin 3) * 4096 ≤ (i 2).val
      ∧ (i 2).val < win0_2.index ⟨(i 0).val * 32 + (i 1).val / 128, hN⟩ (2 : Fin 3) * 4096 + 4096
    rw [e2]; omega

/-- After the run the result array is the banded outer product of the two arguments. -/
theorem final (c : Dev nD) : (dats m 0 c).arrAt 2 cfg0.N
    = banded (m ((c : Thread nD τ).loc main_arg0)) (m ((c : Thread nD τ).loc main_arg1)) :=
  (dats m 0 c).arrAt_eq_of_cover 2 _ (fun t _ => flushed_eq m c t) cover

/-- Every weakly fair execution of the kernel's program ends with the result array at the banded outer product of
    the arguments and the arguments unchanged. -/
theorem run : θ_run defs (onTc (τ := τ) (main (F := Ideal))) ⟨m, fun _ => 0, ρ⟩ fun r => ∀ c : Dev nD,
      r.2.mem ((c : Thread nD τ).loc main_v2) = banded (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.KernelBand

end
-- ==== Proof.RefBand.lean ====
/-
  The reference computes the banded outer product.

  Its result is a select, index by index, between the product of two broadcasts and a broadcast zero, on a mask that
  is itself a chain of broadcasts of two iotas, a word subtraction, two signed compares and their conjunction. Read at
  an index `(b, i, j)`, every broadcast only re-addresses its operand: the first factor is read at `(b, i)`, the
  second at `(b, j)`, the column iota at `j`, the row iota at `i`. What is left is the band test of `i` and `j`
  choosing between `s[b, i] · e[b, j]` and the zero word, which at the extended reals is `0`.
-/
import proofs.«115489_j68676527063502_1_alg».proof.Proof.Gen.ReferenceIdeal.Read
import proofs.«115489_j68676527063502_1_alg».proof.Proof.BandSpec
import Idealize.ShloMosaic.PureOps.Ideal.Laws

noncomputable section

namespace Cert.ReferenceIdeal.RefBand

open Cert.ReferenceIdeal Cert.ReferenceIdeal.Read Cert.Band Idealize.ShloMosaic Idealize.ShloMosaic.ValueIdx

/-- The first factor's two broadcasts, [16, 4096] → [16, 4096, 1] → [16, 4096, 4096], read `(b, i, j)` at `(b, i)`. -/
theorem idx_left (k : S16x4096x4096.Idx) : idx_main_v0 (idx_main_v2 k) = ix2 (k 0) (k 1) :=
  funext fun a => Fin.ext (by match a with | ⟨0, _⟩ => rfl | ⟨1, _⟩ => rfl)

/-- The second factor's two broadcasts, [16, 4096] → [16, 1, 4096] → [16, 4096, 4096], read `(b, i, j)` at `(b, j)`. -/
theorem idx_right (k : S16x4096x4096.Idx) : idx_main_v1 (idx_main_v3 k) = ix2 (k 0) (k 2) :=
  funext fun a => Fin.ext (by match a with | ⟨0, _⟩ => rfl | ⟨1, _⟩ => rfl)

/-- The reference's result is the banded outer product of its two arguments. -/
theorem result_eq (x0 x1 : (⟨S16x4096, .f32⟩ : BufTy).Contents (Elt Ideal)) :
    val_main_v18 (F := Ideal) x0 x1 = banded x0 x1 := by
  funext k
  rw [val_main_v18_apply, val_main_call0_v0_apply, val_main_v17_apply, val_main_v16_apply, val_main_v13_apply,
    val_main_v15_apply, val_main_v11_apply, val_main_v9_apply, val_main_v8_apply, val_main_v7_apply,
    val_main_v10_apply, val_main_v6_apply, val_main_v5_apply, val_main_v12_apply, val_main_c_apply,
    val_main_v14_apply, val_main_c_0_apply, val_main_v4_apply, val_main_v2_apply, val_main_v0_apply,
    val_main_v3_apply, val_main_v1_apply, val_main_call0_v1_apply, val_main_cst_apply, idx_left, idx_right]
  rw [Ideal.ofBits_def, Ideal.ofBits_zero_f32]
  rfl

end Cert.ReferenceIdeal.RefBand

end
-- ==== Proof.lean ====
/-
  The banded outer product: a kernel against its array-level definition, over the extended reals.

  For `s, e : [16, 4096]` both programs produce `out[b, i, j] = s[b, i] · e[b, j]` where `0 ≤ j − i ≤ 15` and
  `0` elsewhere, an array of shape `[16, 4096, 4096]`. The kernel works tile by tile over a 16 × 32 grid — one
  batch entry and 128 rows at a time, the row number rebuilt from the tile's position along the grid's second
  axis —; the reference broadcasts both arguments to the full shape, multiplies, and selects on a mask built from
  two iotas. The two band tests are the same word computation of the row and column numbers (`Proof/BandSpec.lean`,
  which also reads it back as `i ≤ j ≤ i + 15`), the two products are the same product of the same two entries, and the
  fill value is the same zero: the results agree entry by entry with no arithmetic law used, so the inputs'
  finiteness is never needed.

    * `Proof/BandSpec.lean`     the function both sides compute;
    * `Proof/RefBand.lean`      the reference's result is that function (over its run read one operation at a time);
    * `Proof/LibKeepdims.lean`  column and unit-axis layouts read at an index;
    * `Proof/BandPayload.lean`  the kernel's stored tile, entry by entry;
    * `Proof/KernelBand.lean`   each grid point's block is that function read through the block, the blocks tile the
                                 result, so the kernel's result array is that function;
    * `Proof/KernelFrame.lean`, `Proof/KernelIdealFrame.lean`, `Proof/KernelIdealValue.lean`: the two programs'
      frames and the idealized kernel's run with its result array named.

  The kernel's idealization rewrote nothing, so the sanctioned-idealization conjunct is trivial.
-/
import proofs.«115489_j68676527063502_1_alg».proof.Defs
import proofs.«115489_j68676527063502_1_alg».proof.Proof.Gen.Kernel
import proofs.«115489_j68676527063502_1_alg».proof.Proof.KernelFrame
import proofs.«115489_j68676527063502_1_alg».proof.Proof.Gen.KernelIdeal
import proofs.«115489_j68676527063502_1_alg».proof.Proof.KernelIdealFrame
import proofs.«115489_j68676527063502_1_alg».proof.Proof.KernelBand
import proofs.«115489_j68676527063502_1_alg».proof.Proof.Gen.ReferenceIdeal
import proofs.«115489_j68676527063502_1_alg».proof.Proof.Gen.ReferenceIdeal.Run
import proofs.«115489_j68676527063502_1_alg».proof.Proof.Gen.ReferenceIdeal.Read
import proofs.«115489_j68676527063502_1_alg».proof.Proof.RefBand
import proofs.«115489_j68676527063502_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves its arguments as they were. -/
theorem frame_kernel : Cert.frame_Kernel := fun m ρ _ => Cert.Kernel.GenP.frame m ρ

/-- So does its reading over the extended reals. -/
theorem frame_kernelIdeal : Cert.frame_KernelIdeal := fun m ρ _ => Cert.KernelIdeal.GenP.frame m ρ

/-- The reference is host operations only: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on `s` and `e`, both programs end with the banded outer product of `s` and `e`. -/
theorem algebraic : Cert.algebraic_KernelIdeal_ReferenceIdeal := by
  intro m ρ m' ρ' _ hagree
  refine ⟨fun c => Cert.Band.banded (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelBand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefBand.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
